-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x32x64 : Shape := ⟨4, ![32, 128, 32, 64]⟩
abbrev S_ : Shape := ⟨0, ![]⟩

class Facts : Prop where
  bcast_S_S32x128x32x64 : S_.BroadcastsInDim S32x128x32x64 (![] : Fin 0 → Fin S32x128x32x64.rank)
  reducesTo_S32x128x32x64_S_d0_1_2_3 : S32x128x32x64.ReducesTo [0, 1, 2, 3] S_
  h_S_ : 0 < S_.numel

variable [Facts]

def fn_part1 {F : FTy → Type} [FloatOps F] (main_v13 : IVec S_ 1) (main_v16 : IVec S32x128x32x64 1) : IVec S_ 1 :=
  let main_c_5 : IVec S_ 1 := constantI S_ 1 1#1
  let main_v17 : IVec S_ 1 := (fun x v => Host.reduce IntOp.andi x v reducesTo_S32x128x32x64_S_d0_1_2_3 h_S_) main_v16 main_c_5
  let main_v18 : IVec S_ 1 := andi main_v13 main_v17
  main_v18

def fn {F : FTy → Type} [FloatOps F] (main_arg0 : FVec F S32x128x32x64 .f32) (main_arg1 : FVec F S32x128x32x64 .f32) (main_arg2 : FVec F S32x128x32x64 .f32) (main_arg3 : FVec F S32x128x32x64 .f32) : IVec S_ 1 :=
  let main_v0 : FVec F S32x128x32x64 .f32 := Host.absf main_arg0
  let main_cst : FVec F S_ .f32 := constant S_ .f32 0x7F800000#32
  let main_v1 : FVec F S32x128x32x64 .f32 := broadcastInDim S32x128x32x64 ![] bcast_S_S32x128x32x64 main_cst
  let main_v2 : IVec S32x128x32x64 1 := cmpf .olt main_v0 main_v1
  let main_c : IVec S_ 1 := constantI S_ 1 1#1
  let main_v3 : IVec S_ 1 := (fun x v => Host.reduce IntOp.andi x v reducesTo_S32x128x32x64_S_d0_1_2_3 h_S_) main_v2 main_c
  let main_v4 : FVec F S32x128x32x64 .f32 := Host.absf main_arg1
  let main_cst_0 : FVec F S_ .f32 := constant S_ .f32 0x7F800000#32
  let main_v5 : FVec F S32x128x32x64 .f32 := broadcastInDim S32x128x32x64 ![] bcast_S_S32x128x32x64 main_cst_0
  let main_v6 : IVec S32x128x32x64 1 := cmpf .olt main_v4 main_v5
  let main_c_1 : IVec S_ 1 := constantI S_ 1 1#1
  let main_v7 : IVec S_ 1 := (fun x v => Host.reduce IntOp.andi x v reducesTo_S32x128x32x64_S_d0_1_2_3 h_S_) main_v6 main_c_1
  let main_v8 : IVec S_ 1 := andi main_v3 main_v7
  let main_v9 : FVec F S32x128x32x64 .f32 := Host.absf main_arg2
  let main_cst_2 : FVec F S_ .f32 := constant S_ .f32 0x7F800000#32
  let main_v10 : FVec F S32x128x32x64 .f32 := broadcastInDim S32x128x32x64 ![] bcast_S_S32x128x32x64 main_cst_2
  let main_v11 : IVec S32x128x32x64 1 := cmpf .olt main_v9 main_v10
  let main_c_3 : IVec S_ 1 := constantI S_ 1 1#1
  let main_v12 : IVec S_ 1 := (fun x v => Host.reduce IntOp.andi x v reducesTo_S32x128x32x64_S_d0_1_2_3 h_S_) main_v11 main_c_3
  let main_v13 : IVec S_ 1 := andi main_v8 main_v12
  let main_v14 : FVec F S32x128x32x64 .f32 := Host.absf main_arg3
  let main_cst_4 : FVec F S_ .f32 := constant S_ .f32 0x7F800000#32
  let main_v15 : FVec F S32x128x32x64 .f32 := broadcastInDim S32x128x32x64 ![] bcast_S_S32x128x32x64 main_cst_4
  let main_v16 : IVec S32x128x32x64 1 := cmpf .olt main_v14 main_v15
  fn_part1 (F := F) main_v13 main_v16
-- ==== Kernel.lean ====
abbrev S32x128x32x64 : Shape := ⟨4, ![32, 128, 32, 64]⟩
abbrev S4096x2048 : Shape := ⟨2, ![4096, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S32x128x32x64, .f32⟩
  | .hbm, ⟨1, _⟩ => ⟨S32x128x32x64, .f32⟩
  | .hbm, ⟨2, _⟩ => ⟨S32x128x32x64, .f32⟩
  | .hbm, ⟨3, _⟩ => ⟨S32x128x32x64, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x1, .f32⟩
  | .local _ .vmem, ⟨9, _⟩ => ⟨S1x1, .f32⟩
  | _, _ => ⟨S32x128x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v34 : BitVec 1 := Scalar.cmpi .eq arg0 c15_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S32x128x32x64_S4096x2048 : S32x128x32x64.ShapeCasts S4096x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x128x32x64 : Shape := ⟨4, ![32, 128, 32, 64]⟩
abbrev S_ : Shape := ⟨0, ![]⟩
abbrev S32x128 : Shape := ⟨2, ![32, 128]⟩

abbrev nBuf : Space → Nat
  | .hbm => 27
  | .vmem => 0
  | .smem => 0
  | _ => 0

abbrev bufTy : (tb : Table) → Fin (tcTables nBuf tb) → BufTy
  | .hbm, ⟨0, _⟩ => ⟨S32x128x32x64, .f32⟩
  | .hbm, ⟨1, _⟩ => ⟨S32x128x32x64, .f32⟩
  | .hbm, ⟨2, _⟩ => ⟨S32x128x32x64, .f32⟩
  | .hbm, ⟨3, _⟩ => ⟨S32x128x32x64, .f32⟩
  | .hbm, ⟨4, _⟩ => ⟨S32x128x32x64, .f32⟩
  | .hbm, ⟨5, _⟩ => ⟨S32x128x32x64, .f32⟩
  | .hbm, ⟨6, _⟩ => ⟨S32x128x32x64, .f32⟩
  | .hbm, ⟨7, _⟩ => ⟨S32x128x32x64, .f32⟩
  | .hbm, ⟨8, _⟩ => ⟨S32x128x32x64, .f32⟩
  | .hbm, ⟨9, _⟩ => ⟨S32x128x32x64, .f32⟩
  | .hbm, ⟨10, _⟩ => ⟨S_, .f32⟩
  | .hbm, ⟨11, _⟩ => ⟨S32x128x32x64, .f32⟩
  | .hbm, ⟨12, _⟩ => ⟨S32x128x32x64, .f32⟩
  | .hbm, ⟨13, _⟩ => ⟨S32x128x32x64, .f32⟩
  | .hbm, ⟨14, _⟩ => ⟨S_, .f32⟩
  | .hbm, ⟨15, _⟩ => ⟨S32x128x32x64, .f32⟩
  | .hbm, ⟨16, _⟩ => ⟨S32x128x32x64, .f32⟩
  | .hbm, ⟨17, _⟩ => ⟨S32x128x32x64, .f32⟩
  | .hbm, ⟨18, _⟩ => ⟨S_, .f32⟩
  | .hbm, ⟨19, _⟩ => ⟨S32x128x32x64, .f32⟩
  | .hbm, ⟨20, _⟩ => ⟨S32x128x32x64, .f32⟩
  | .hbm, ⟨21, _⟩ => ⟨S_, .f32⟩
  | .hbm, ⟨22, _⟩ => ⟨S32x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S32x128x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S32x128x32x64 : S_.BroadcastsInDim S32x128x32x64 (![] : Fin 0 → Fin S32x128x32x64.rank)
  reducesTo_S32x128x32x64_S32x128_d2_3 : S32x128x32x64.ReducesTo [2, 3] S32x128
  h_S_ : 0 < S_.numel
  reducesTo_S32x128_S_d0_1 : S32x128.ReducesTo [0, 1] S_

variable [Facts₀]

class Facts : Prop extends Facts₀ where

variable [Facts]
-- ==== Proof.Pieces.lean ====
/-
  What one grid point leaves behind, read as values. The kernel keeps one number in a 1 × 1 accumulator that lives
  across its sixteen grid points. The first point stores zero there, reads it back and adds its block's total; every
  later point reads what the point before left and adds its own block's total; the last point also copies the result
  into the 1 × 1 output block. The lemmas below say exactly that of the pieces the body's run stored, at any float
  instance: in each of the three cases the accumulator (and at the last point the output block) ends holding the
  body's one stored expression, applied to the point's four input blocks and to the accumulator's prior contents.
-/
import proofs.«156504_j74560632259496_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- At a point that is neither the first nor the last the body leaves in the carried 1 × 1 accumulator, which held
    `xs`, the body's one stored value: `xs` plus the total of the summand over the four input blocks. -/
theorem sout_B (c : Dev nD) (i : grid0.Coords) (a1 : Memref sig .tc .vmem S256x2048 .f32) (h1 : a1.IsWhole)
    (a2 : Memref sig .tc .vmem S256x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 x1 x2 x3 : Vec F S256x2048 .f32) (xs : Vec F S1x1 .f32) :
    sout0_B_0 c i a1 h1 a2 h2 a3 h3 a4 h4 a5 h5 a6 h6 hc0 hc1 x0 x1 x2 x3 xs = k0_pay2 x0 x1 x2 x3 xs := by
  unfold sout0_B_0
  rw [View.read_writes_eq_canon _ _ _ (scover0_B_0 c i a1 h1 a2 h2 a3 h3 a4 h4 a5 h5 a6 h6 hc0 hc1 x0 x1 x2 x3 xs)]
  unfold kernelRun0_B
  dsimp only
  sl_unfold_words
  rw [View.canon_unit_zero hz]
  simp only [View.readAt_eq_ld, h1.read_unread, h2.read_unread, h3.read_unread, h4.read_unread, h6.read_unread,
    View.ld_unit_zero (S := S256x2048) hz, View.ld_unit_zero (S := S1x1) hz]

/-- At the first point the body first stores the zero of the accumulator, reads it back, and leaves that zero plus
    the total over the four input blocks. -/
theorem sout_A (c : Dev nD) (i : grid0.Coords) (a1 : Memref sig .tc .vmem S256x2048 .f32) (h1 : a1.IsWhole)
    (a2 : Memref sig .tc .vmem S256x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 x1 x2 x3 : Vec F S256x2048 .f32) :
    sout0_A_0 c i a1 h1 a2 h2 a3 h3 a4 h4 a5 h5 a6 h6 hc0 hc1 x0 x1 x2 x3 = k0_pay2 x0 x1 x2 x3 k0_pay1 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S256x2048) hz]

/-- At the last point the accumulator is updated as at every other point … -/
theorem sout_C (c : Dev nD) (i : grid0.Coords) (a1 : Memref sig .tc .vmem S256x2048 .f32) (h1 : a1.IsWhole)
    (a2 : Memref sig .tc .vmem S256x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 x2 x3 : Vec F S256x2048 .f32) (xs : Vec F S1x1 .f32) :
    sout0_C_0 c i a1 h1 a2 h2 a3 h3 a4 h4 a5 h5 a6 h6 hc0 hc1 x0 x1 x2 x3 xs = k0_pay2 x0 x1 x2 x3 xs := by
  unfold sout0_C_0
  rw [View.read_writes_eq_canon _ _ _ (scover0_C_0 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread,
    View.ld_unit_zero (S := S256x2048) hz, View.ld_unit_zero (S := S1x1) hz]

/-- … and the output block receives a copy of the accumulator just updated. -/
theorem out_C (c : Dev nD) (i : grid0.Coords) (a1 : Memref sig .tc .vmem S256x2048 .f32) (h1 : a1.IsWhole)
    (a2 : Memref sig .tc .vmem S256x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 x2 x3 : Vec F S256x2048 .f32) (xs : Vec F S1x1 .f32) :
    out0_C_4 c i a1 h1 a2 h2 a3 h3 a4 h4 a5 h5 a6 h6 hc0 hc1 x0 x1 x2 x3 xs = k0_pay2 x0 x1 x2 x3 xs := by
  unfold out0_C_4
  rw [View.read_writes_eq_canon _ _ _ (cover0_C_4 c i a1 h1 a2 h2 a3 h3 a4 h4 a5 h5 a6 h6 hc0 hc1 x0 x1 x2 x3 xs)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h6.read_unread,
    View.ld_unit_zero (S := S256x2048) hz, View.ld_unit_zero (S := S1x1) hz]

end Cert.KernelIdeal.Acc

end
-- ==== Proof.Spec.lean ====
/-
  The mathematics of the certificate, stated over the extended reals with no program in sight.

  The quantity is the Kullback–Leibler divergence between two diagonal Gaussians, summed over every element of four
  arrays and divided by 4096. Per element, with r = σp / σq and d = (μq − μp) / σq, the summand is
  ½ · (r·r + d·d − 1 − 2·log r) (`klElem`). Addition of extended reals is commutative and associative, so a finite
  sum does not depend on how its index set is cut up: this module shows that the three cuts met later — a lane sum
  followed by a row sum on a 256 × 2048 block; sixteen such blocks laid one under the other in a 4096 × 2048 array;
  a sum over the last two axes of a rank-4 array followed by a sum over the first two — all add up every element once,
  and that a row-major re-indexing of an array does not change the total.
-/
import Idealize.ShloMosaic.PureOps.Ideal
import Idealize.ShloMosaic.PureOps.Ideal.Laws
import Idealize.ShloMosaic.Lib.ValueIdx

noncomputable section

namespace Cert.KLSum

open Idealize.ShloMosaic Idealize.ShloMosaic.ValueIdx

/-- The summand at one element: ½ · (r·r + d·d − 1 − 2·log r) with r = σp / σq, d = (μq − μp) / σq, every operation
    the exact one on the extended reals, the three constants the binary values of 0.5, 1.0 and 2.0. -/
def klElem (pm ps qm qs : EReal) : EReal :=
  Ideal.ofBits .f32 0x3F000000#32 *
    (Ideal.div ps qs * Ideal.div ps qs + Ideal.div (qm - pm) qs * Ideal.div (qm - pm) qs
        - Ideal.ofBits .f32 0x3F800000#32
      - Ideal.ofBits .f32 0x40000000#32 * Ideal.log (Ideal.div ps qs))

/-- The summand over whole arrays of one shape. -/
def klVec {s : Shape} (pm ps qm qs : s.Idx → EReal) : s.Idx → EReal :=
  fun i => klElem (pm i) (ps i) (qm i) (qs i)

/-- The grand total: every element's summand added up, then divided by 4096 (the binary value of 4096.0). -/
def klMean {s : Shape} (pm ps qm qs : s.Idx → EReal) : EReal :=
  Ideal.div (∑ i, klVec pm ps qm qs i) (Ideal.ofBits .f32 0x45800000#32)

/-! ## Re-indexing and cutting a finite sum -/

/-- A row-major re-indexing of an array leaves the sum of its elements unchanged: the re-indexing is a bijection
    of the index sets. -/
theorem sum_shapeCast {s t : Shape} (x : s.Idx → EReal) (h : s.ShapeCasts t) :
    ∑ j, shapeCast t x h j = ∑ i, x i := by
  unfold shapeCast
  exact Equiv.sum_comp (Shape.reshapeEquiv h) x

/-- The summand commutes with a re-indexing, so the total of the re-indexed arrays is the total of the originals. -/
theorem sum_klVec_shapeCast {s t : Shape} (pm ps qm qs : s.Idx → EReal) (h : s.ShapeCasts t) :
    ∑ j, klVec (shapeCast t pm h) (shapeCast t ps h) (shapeCast t qm h) (shapeCast t qs h) j
      = ∑ i, klVec pm ps qm qs i :=
  sum_shapeCast (klVec pm ps qm qs) h

/-- A sum over the reduced axes followed by a sum over the kept ones is the sum over everything: each index lies
    in exactly one fibre of the projection that drops the reduced axes. -/
theorem sum_reduceAdd {s t : Shape} {axes : List (Fin s.rank)} (h : s.Reduces axes t) (x : s.Idx → EReal) :
    ∑ j, Ideal.reduceAdd h x j = ∑ i, x i := by
  unfold Ideal.reduceAdd
  exact Finset.sum_fiberwise Finset.univ h.drop x

/-- A block of 256 × 2048 summed along its lanes, the 256 row sums stood up as a column and summed, the one number
    left re-indexed as a 1 × 1 array: that number is the sum of the whole block. -/
theorem block_total (v : FVec Ideal ⟨2, ![256, 2048]⟩ .f32)
    (h1 : (⟨2, ![256, 2048]⟩ : Shape).Reduces [1] ⟨1, ![256]⟩)
    (c1 : (⟨1, ![256]⟩ : Shape).ShapeCasts ⟨2, ![256, 1]⟩)
    (h2 : (⟨2, ![256, 1]⟩ : Shape).Reduces [0] ⟨1, ![1]⟩)
    (c2 : (⟨1, ![1]⟩ : Shape).ShapeCasts ⟨2, ![1, 1]⟩)
    (hφ : FKind.Formats .f32) (hacc : (0x00000000#32 : BitVec 32) = FKind.add.neutral .f32 hφ)
    (j : (⟨2, ![1, 1]⟩ : Shape).Idx) :
    shapeCast ⟨2, ![1, 1]⟩
        (multiReduction .add [0] ⟨1, ![1]⟩
          (shapeCast ⟨2, ![256, 1]⟩ (multiReduction .add [1] ⟨1, ![256]⟩ v 0x00000000#32 h1 hφ hacc) c1)
          0x00000000#32 h2 hφ hacc) c2 j
      = ∑ y, v y := by
  unfold shapeCast
  rw [Ideal.multiReduction_add_total _ _ h2 (fun b => by fin_cases b; rfl)]
  rw [Equiv.sum_comp (Shape.reshapeEquiv c1)
    (multiReduction .add [1] ⟨1, ![256]⟩ v 0x00000000#32 h1 hφ hacc)]
  exact sum_reduceAdd h1 v

/-- The host's two-stage sum of a rank-4 array — over its last two axes from zero, then over the two left from
    zero — is the sum of every element (adding zero changes nothing). -/
theorem host_total (x : (⟨4, ![32, 128, 32, 64]⟩ : Shape).Idx → EReal)
    (h1 : (⟨4, ![32, 128, 32, 64]⟩ : Shape).ReducesTo [2, 3] ⟨2, ![32, 128]⟩)
    (h2 : (⟨2, ![32, 128]⟩ : Shape).ReducesTo [0, 1] ⟨0, ![]⟩) (j : (⟨0, ![]⟩ : Shape).Idx) :
    Ideal.hostReduceAdd h2 (Ideal.hostReduceAdd h1 x (Ideal.ofBits .f32 0x00000000#32))
        (Ideal.ofBits .f32 0x00000000#32) j
      = ∑ i, x i := by
  rw [Ideal.hostReduceAdd_total h2 (fun b => b.elim0), Ideal.ofBits_zero_f32, zero_add]
  unfold Ideal.hostReduceAdd
  simp only [zero_add]
  exact Finset.sum_fiberwise Finset.univ h1.drop x

/-! ## Sixteen blocks of 256 rows are the 4096 rows -/

/-- Row `r` of block `t` is row `256·t + r` of the array. -/
def blockRow (t : Fin 16) (r : Fin 256) : Fin 4096 := ⟨256 * t.val + r.val, by omega⟩

/-- Every row of the array is a row of exactly one block: a sum over the 4096 rows is the sum over the sixteen
    blocks of the sums over each block's 256 rows. -/
theorem sum_rows {M : Type*} [AddCommMonoid M] (g : Fin 4096 → M) :
    ∑ R, g R = ∑ t : Fin 16, ∑ r : Fin 256, g (blockRow t r) := by
  rw [← Fintype.sum_prod_type' (f := fun t r => g (blockRow t r))]
  refine (Equiv.sum_comp (finProdFinEquiv (m := 16) (n := 256)) g).symm.trans ?_
  refine Fintype.sum_congr _ _ fun p => congrArg g (Fin.ext ?_)
  show p.2.val + 256 * p.1.val = 256 * p.1.val + p.2.val
  omega

/-- Index `y` of block `t`, as an index of the whole 4096 × 2048 array. -/
def blockIdx (t : Fin 16) (y : (⟨2, ![256, 2048]⟩ : Shape).Idx) : (⟨2, ![4096, 2048]⟩ : Shape).Idx :=
  ix2 (blockRow t (y 0)) (y 1)

/-- The sum over the array is the sum over the blocks of each block's sum. -/
theorem sum_blocks {M : Type*} [AddCommMonoid M] (f : (⟨2, ![4096, 2048]⟩ : Shape).Idx → M) :
    ∑ t : Fin 16, ∑ y, f (blockIdx t y) = ∑ i, f i := by
  rw [sum_idx2 f, sum_rows fun R => ∑ C : Fin 2048, f (ix2 R C)]
  refine Fintype.sum_congr _ _ fun t => ?_
  rw [sum_idx2 fun y => f (blockIdx t y)]
  rfl

end Cert.KLSum

end
-- ==== Proof.KernelValue.lean ====
/-
  The idealized kernel's value. The region's sixteen grid points each add, into a 1 × 1 accumulator, the total of the
  summand over a block of 256 rows of the four (re-indexed, 4096 × 2048) argument arrays; the last point copies the
  accumulator into the region's 1 × 1 result array; the host then divides by 4096.

  In order: the body's stored expression as "prior value + block total" on the extended reals; the accumulator after
  point n as the sum of the block totals of points 0 … n, by induction on the point over the three cases of the body's
  two conditionals; each block as 256 consecutive rows of an argument array re-indexed row-major; the sixteen block
  totals as the total over all elements; the result array from the one write-back; the division after the region.
-/
import proofs.«156504_j74560632259496_1_alg».proof.Proof.Pieces
import proofs.«156504_j74560632259496_1_alg».proof.Proof.Spec
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

/-- The accumulator's zero: the stored zero vector reads 0 at its one index. -/
theorem pay1_apply (j : S1x1.Idx) : k0_pay1 (F := Ideal) j = 0 := by
  unfold k0_pay1
  simp only [shapeCast_self]
  exact Ideal.ofBits_zero_f32

/-- The body's stored expression on the extended reals: the accumulator's prior value plus the total, over the whole
    256 × 2048 block, of the summand of the four input blocks (μp, σp, μq, σq in the order the body loads them). The
    lane sum followed by the row sum is the block's total (`KLSum.block_total`). -/
theorem pay2_apply (x0 x1 x2 x3 : Vec Ideal S256x2048 .f32) (xs : Vec Ideal S1x1 .f32) (j : S1x1.Idx) :
    k0_pay2 (F := Ideal) x0 x1 x2 x3 xs j = xs j + ∑ y, Cert.KLSum.klVec x0 x1 x2 x3 y := by
  unfold k0_pay2
  simp only [shapeCast_self]
  rw [addf_apply]
  refine congrArg (xs j + ·) ?_
  refine (Cert.KLSum.block_total _ reduces_S256x2048_S256 shapeCasts_S256_S256x1 reduces_S256x1_S1 shapeCasts_S1_S1x1 _ _ j).trans ?_
  rfl

variable (m : (ℓ : Loc nD τ sig) → Buf (Elt Ideal) ℓ) (ρ : Dev nD → PrngReg)

/-- The four input blocks at grid point `t`: rows 256·t … 256·t + 255 of the four re-indexed argument arrays. -/
abbrev blk0 (c : Dev nD) (t : Fin cfg0.N) : Vec Ideal S256x2048 .f32 := iblk m c 0 t
abbrev blk1 (c : Dev nD) (t : Fin cfg0.N) : Vec Ideal S256x2048 .f32 := iblk m c 1 t
abbrev blk2 (c : Dev nD) (t : Fin cfg0.N) : Vec Ideal S256x2048 .f32 := iblk m c 2 t
abbrev blk3 (c : Dev nD) (t : Fin cfg0.N) : Vec Ideal S256x2048 .f32 := iblk m c 3 t

/-- The total of the summand over point `t`'s blocks … -/
def blockTotal (c : Dev nD) (t : Fin cfg0.N) : EReal :=
  ∑ y, Cert.KLSum.klVec (blk0 m c t) (blk1 m c t) (blk2 m c t) (blk3 m c t) y

/-- … and the same by the point's number (zero past the grid). -/
def partialAt (c : Dev nD) (n : ℕ) : EReal := if h : n < cfg0.N then blockTotal m c ⟨n, h⟩ else 0

/-- After the first point the accumulator holds the zero it was reset to, read back, updated by the point's blocks. -/
theorem scratch_first (c : Dev nD) (h : 0 < cfg0.N) :
    (outsAt0 m c 0 h).2 = k0_pay2 (blk0 m c ⟨0, h⟩) (blk1 m c ⟨0, h⟩) (blk2 m c ⟨0, h⟩) (blk3 m c ⟨0, h⟩) (k0_pay1 (F := Ideal)) := by
  rw [outsAt0_A m c ⟨0, h⟩ rfl (show ¬(0 : ℕ) % 16 = 15 by decide)]
  dsimp only
  exact sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (blk0 m c ⟨0, h⟩) (blk1 m c ⟨0, h⟩) (blk2 m c ⟨0, h⟩) (blk3 m c ⟨0, h⟩)

/-- After any later point it holds what the point before left, updated by this point's blocks (the last point
    updates it like any other). -/
theorem scratch_step (c : Dev nD) (t : Fin cfg0.N) (h0 : ¬t.val % 16 = 0) :
    (outsAt0 m c t.val t.isLt).2
      = k0_pay2 (blk0 m c t) (blk1 m c t) (blk2 m c t) (blk3 m c t) (outsAt0 m c (t.val - 1) (Nat.lt_of_le_of_lt (Nat.sub_le _ _) t.isLt)).2 := by
  by_cases h1 : t.val % 16 = 15
  · rw [outsAt0_C m c t h0 h1]
    dsimp only
    exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (blk0 m c t) (blk1 m c t) (blk2 m c t) (blk3 m c t) _
  · rw [outsAt0_B m c t h0 h1]
    dsimp only
    exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (blk0 m c t) (blk1 m c t) (blk2 m c t) (blk3 m c t) _

/-- At the last point the output block receives the accumulator's new contents. -/
theorem out_last (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (blk0 m c t) (blk1 m c t) (blk2 m c t) (blk3 m c t) _).trans
    (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (blk0 m c t) (blk1 m c t) (blk2 m c t) (blk3 m c t) _).symm

/-- THE RUNNING SUM. After point `n` the accumulator holds the sum of the block totals of points 0 … n: by
    induction on the point, each step adding one block's total to what the point before left; the reset's zero is
    the empty sum. -/
theorem acc_eq (c : Dev nD) : ∀ (n : ℕ) (h : n < cfg0.N),
    (outsAt0 m c n h).2 = fun _ => ∑ s ∈ Finset.range (n + 1), partialAt m c s
  | 0, h => by
    rw [scratch_first m c h]
    funext j
    rw [pay2_apply, pay1_apply, zero_add, Finset.sum_range_one]
    unfold partialAt
    rw [dif_pos h]
    rfl
  | n + 1, h => by
    have hN : cfg0.N = 16 := N_0
    have h0 : ¬(⟨n + 1, h⟩ : Fin cfg0.N).val % 16 = 0 := by dsimp only; omega
    rw [scratch_step m c ⟨n + 1, h⟩ h0]
    funext j
    rw [pay2_apply]
    show (outsAt0 m c n (Nat.lt_of_succ_lt h)).2 j + _ = _
    rw [acc_eq c n (Nat.lt_of_succ_lt h), Finset.sum_range_succ _ (n + 1)]
    refine congrArg (_ + ·) ?_
    unfold partialAt
    rw [dif_pos h]
    rfl

/-! ## The blocks are rows of the re-indexed arguments -/

/-- The four arrays the region reads, at their literal type: … -/
abbrev arr0 (c : Dev nD) : Vec Ideal S4096x2048 .f32 := V m c main_v0
abbrev arr1 (c : Dev nD) : Vec Ideal S4096x2048 .f32 := V m c main_v1
abbrev arr2 (c : Dev nD) : Vec Ideal S4096x2048 .f32 := V m c main_v2
abbrev arr3 (c : Dev nD) : Vec Ideal S4096x2048 .f32 := V m c main_v3

/-- … each the row-major re-indexing, as 4096 × 2048, of one argument array. -/
theorem arr0_eq (c : Dev nD) : arr0 m c = shapeCast S4096x2048 (m ((c : Thread nD τ).loc main_arg0)) shapeCasts_S32x128x32x64_S4096x2048 := by
  show StableHlo.after hostOps0 (fun b => m (c, b)) (Proc.devRef .tc main_v0) = _
  after_results
  rfl
theorem arr1_eq (c : Dev nD) : arr1 m c = shapeCast S4096x2048 (m ((c : Thread nD τ).loc main_arg1)) shapeCasts_S32x128x32x64_S4096x2048 := by
  show StableHlo.after hostOps0 (fun b => m (c, b)) (Proc.devRef .tc main_v1) = _
  after_results
  rfl
theorem arr2_eq (c : Dev nD) : arr2 m c = shapeCast S4096x2048 (m ((c : Thread nD τ).loc main_arg2)) shapeCasts_S32x128x32x64_S4096x2048 := by
  show StableHlo.after hostOps0 (fun b => m (c, b)) (Proc.devRef .tc main_v2) = _
  after_results
  rfl
theorem arr3_eq (c : Dev nD) : arr3 m c = shapeCast S4096x2048 (m ((c : Thread nD τ).loc main_arg3)) shapeCasts_S32x128x32x64_S4096x2048 := by
  show StableHlo.after hostOps0 (fun b => m (c, b)) (Proc.devRef .tc main_v3) = _
  after_results
  rfl

/-- Every input window's block index at point `t` is (t, 0): decided over the sixteen points. -/
theorem index_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index_facts3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem blk0_apply (c : Dev nD) (t : Fin 16) (y : S256x2048.Idx) :
    blk0 m c (Fin.cast N_0.symm t) y = arr0 m c (Cert.KLSum.blockIdx t y) := by
  have hi := index_facts0 (Fin.cast N_0.symm t)
  show iblk m c 0 (Fin.cast N_0.symm t) y = V m c main_v0 _
  unfold iblk
  rw [View.read_apply]
  show V m c main_v0 _ = V m c main_v0 _
  congr 1
  funext a
  apply Fin.ext
  match a with
  | ⟨0, _⟩ =>
    show win0_0.index (Fin.cast N_0.symm t) 0 * 256 + 1 * (y 0).val = 256 * t.val + (y 0).val
    rw [hi.1]; show t.val * 256 + 1 * (y 0).val = _; omega
  | ⟨1, _⟩ =>
    show win0_0.index (Fin.cast N_0.symm t) 1 * 2048 + 1 * (y 1).val = (y 1).val
    rw [hi.2]; omega

theorem blk1_apply (c : Dev nD) (t : Fin 16) (y : S256x2048.Idx) :
    blk1 m c (Fin.cast N_0.symm t) y = arr1 m c (Cert.KLSum.blockIdx t y) := by
  have hi := index_facts1 (Fin.cast N_0.symm t)
  show iblk m c 1 (Fin.cast N_0.symm t) y = V m c main_v1 _
  unfold iblk
  rw [View.read_apply]
  show V m c main_v1 _ = V m c main_v1 _
  congr 1
  funext a
  apply Fin.ext
  match a with
  | ⟨0, _⟩ =>
    show win0_1.index (Fin.cast N_0.symm t) 0 * 256 + 1 * (y 0).val = 256 * t.val + (y 0).val
    rw [hi.1]; show t.val * 256 + 1 * (y 0).val = _; omega
  | ⟨1, _⟩ =>
    show win0_1.index (Fin.cast N_0.symm t) 1 * 2048 + 1 * (y 1).val = (y 1).val
    rw [hi.2]; omega

theorem blk2_apply (c : Dev nD) (t : Fin 16) (y : S256x2048.Idx) :
    blk2 m c (Fin.cast N_0.symm t) y = arr2 m c (Cert.KLSum.blockIdx t y) := by
  have hi := index_facts2 (Fin.cast N_0.symm t)
  show iblk m c 2 (Fin.cast N_0.symm t) y = V m c main_v2 _
  unfold iblk
  rw [View.read_apply]
  show V m c main_v2 _ = V m c main_v2 _
  congr 1
  funext a
  apply Fin.ext
  match a with
  | ⟨0, _⟩ =>
    show win0_2.index (Fin.cast N_0.symm t) 0 * 256 + 1 * (y 0).val = 256 * t.val + (y 0).val
    rw [hi.1]; show t.val * 256 + 1 * (y 0).val = _; omega
  | ⟨1, _⟩ =>
    show win0_2.index (Fin.cast N_0.symm t) 1 * 2048 + 1 * (y 1).val = (y 1).val
    rw [hi.2]; omega

theorem blk3_apply (c : Dev nD) (t : Fin 16) (y : S256x2048.Idx) :
    blk3 m c (Fin.cast N_0.symm t) y = arr3 m c (Cert.KLSum.blockIdx t y) := by
  have hi := index_facts3 (Fin.cast N_0.symm t)
  show iblk m c 3 (Fin.cast N_0.symm t) y = V m c main_v3 _
  unfold iblk
  rw [View.read_apply]
  show V m c main_v3 _ = V m c main_v3 _
  congr 1
  funext a
  apply Fin.ext
  match a with
  | ⟨0, _⟩ =>
    show win0_3.index (Fin.cast N_0.symm t) 0 * 256 + 1 * (y 0).val = 256 * t.val + (y 0).val
    rw [hi.1]; show t.val * 256 + 1 * (y 0).val = _; omega
  | ⟨1, _⟩ =>
    show win0_3.index (Fin.cast N_0.symm t) 1 * 2048 + 1 * (y 1).val = (y 1).val
    rw [hi.2]; omega

/-! ## The grand total -/

/-- Point `t`'s block total is the total of the summand of the four arrays over rows 256·t … 256·t + 255. -/
theorem blockTotal_eq (c : Dev nD) (t : Fin 16) :
    blockTotal m c (Fin.cast N_0.symm t) = ∑ y, Cert.KLSum.klVec (arr0 m c) (arr1 m c) (arr2 m c) (arr3 m c) (Cert.KLSum.blockIdx t y) := by
  unfold blockTotal
  refine Fintype.sum_congr _ _ fun y => ?_
  unfold Cert.KLSum.klVec
  rw [blk0_apply, blk1_apply, blk2_apply, blk3_apply]

/-- The sixteen block totals add up to the total over the whole 4096 × 2048 arrays (the blocks cut the rows into
    sixteen runs of 256), and that is the total over the argument arrays (a re-indexing moves no element). -/
theorem total_eq (c : Dev nD) :
    ∑ s ∈ Finset.range 16, partialAt m c s = ∑ j, Cert.KLSum.klVec (m ((c : Thread nD τ).loc main_arg0)) (m ((c : Thread nD τ).loc main_arg1)) (m ((c : Thread nD τ).loc main_arg2)) (m ((c : Thread nD τ).loc main_arg3)) j := by
  rw [← Fin.sum_univ_eq_sum_range (fun s => partialAt m c s) 16]
  have hp : ∀ t : Fin 16, partialAt m c t.val = ∑ y, Cert.KLSum.klVec (arr0 m c) (arr1 m c) (arr2 m c) (arr3 m c) (Cert.KLSum.blockIdx t y) := fun t => by
    rw [← blockTotal_eq]
    unfold partialAt
    rw [dif_pos (show t.val < cfg0.N from lt_of_lt_of_eq t.isLt N_0.symm)]
    rfl
  rw [Fintype.sum_congr _ _ hp, Cert.KLSum.sum_blocks (fun i => Cert.KLSum.klVec (arr0 m c) (arr1 m c) (arr2 m c) (arr3 m c) i)]
  rw [arr0_eq, arr1_eq, arr2_eq, arr3_eq]
  exact Cert.KLSum.sum_klVec_shapeCast _ _ _ _ _

/-! ## The result array and the division after the region -/

/-- The 1 × 1 array the region writes: the running sum after the last point. -/
abbrev result4 (c : Dev nD) : Vec Ideal S1x1 .f32 :=
  fun _ => ∑ s ∈ Finset.range 16, partialAt m c s

/-- The one write-back, at the last point, writes the accumulator's final contents: the output's one block is the array. -/
theorem flushed_eq (c : Dev nD) (t : Fin cfg0.N) (hf : (cfg0.win 4).flush t = true) :
    (dats m 0 c).flushed 4 t = ((cfg0.win 4).blk t).view.read (Elt Ideal) (result4 m c) := by
  have hN : cfg0.N = 16 := N_0
  have h15 : t.val % 16 = 15 := (flush0_4 t).mp hf
  have ht : t.val = 15 := by have := t.isLt; omega
  obtain rfl : t = t0_15 := Fin.ext ht
  show (cfg0.win 4).cut (grid0.coords t0_15) ((dats m 0 c).after 4 t0_15) = _
  rw [after0_4, out_last m c t0_15 h15, acc_eq]
  have hz' : (fun a => win0_4.index t0_15 a * main_v4.ty.shape.size a) = fun _ => 0 := funext fun a => by fin_cases a <;> decide
  exact (Memref.read_access_unit_zero (Elt Ideal) main_v4 hz' (fun a => by rw [congrFun hz' a]; simp) (result4 m c)).symm

/-- So the region leaves the running sum in its result array: the last point's block covers it. -/
theorem final4 (c : Dev nD) : (dats m 0 c).arrAt 4 cfg0.N = result4 m c :=
  (dats m 0 c).arrAt_eq_of_cover 4 (result4 m c) (flushed_eq m c) fun i =>
    ⟨t0_15, (flush0_4 t0_15).mpr rfl, by
      show i ∈ ((View.whole main_v4).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 1 from by decide +kernel]; omega⟩

/-- After the region the host re-indexes the 1 × 1 array as a scalar and divides it by 4096: the program's result is the
    mean the specification names, of the argument arrays. -/
theorem result_eq (c : Dev nD) :
    Pipeline.afterTail₀ cfgs (dats m) 0 (V0 m) [hostOps1] c main_v6
      = fun _ => Cert.KLSum.klMean (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v6) = _
  after_results
  have hX : Pipeline.withArrays (cfgs 0).spec c (V0 m c) (fun w => (dats m 0 c).arrAt w (cfgs 0).N)
      (Proc.devRef .tc main_v4) = result4 m c :=
    (Pipeline.withArrays_arr spec0 launch0.win.arr_inj c _ _ 4).trans (final4 m c)
  rw [hX]
  funext i
  show Ideal.div (∑ s ∈ Finset.range 16, partialAt m c s) _ = _
  rw [total_eq]
  rfl

/-! ## The run, read -/

/-- Every weakly fair execution of the idealized kernel's program terminates with its scalar result at the mean the
    specification names, of the argument arrays as launched, and the four argument arrays unchanged: the frame run's
    post read at the result (the division after the region applied to the region's array) and at the arguments. -/
theorem run : θ_run defs (onTc (τ := τ) (main (F := Ideal))) ⟨m, fun _ => 0, ρ⟩ fun r => ∀ c : Dev nD,
      r.2.mem ((c.tc : Thread nD τ).loc main_v6) = (fun _ => Cert.KLSum.klMean (m ((c : Thread nD τ).loc main_arg0)) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Acc

end
-- ==== Proof.RefValue.lean ====
/-
  The reference, read as one number. Its result is, element by element, the summand ½ · (r·r + d·d − 1 − 2·log r) of
  the four argument arrays, summed over the last two axes from zero, then over the first two from zero, then divided
  by 4096: on the extended reals that is the grand total of the summand over every element, divided by 4096.
-/
import proofs.«156504_j74560632259496_1_alg».proof.Proof.Gen.ReferenceIdeal.Run
import proofs.«156504_j74560632259496_1_alg».proof.Proof.Gen.ReferenceIdeal.Read
import proofs.«156504_j74560632259496_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read

/-- The reference's last stage is the mean the specification names: the host's division, logarithm, products and
    differences are the exact ones, its two sums from zero add up every element once. The arguments are, in the
    reference's order, μp, σp, μq, σq. -/
theorem result_eq (x0 x1 x2 x3 : (⟨S32x128x32x64, .f32⟩ : BufTy).Contents (Elt Ideal)) :
    val_main_v16 (F := Ideal) x0 x1 x2 x3 = fun _ => Cert.KLSum.klMean x0 x1 x2 x3 := by
  funext i
  show Ideal.div (Ideal.hostReduceAdd reducesTo_S32x128_S_d0_1
      (Ideal.hostReduceAdd reducesTo_S32x128x32x64_S32x128_d2_3 (Cert.KLSum.klVec x0 x1 x2 x3) (Ideal.ofBits .f32 0x00000000#32))
      (Ideal.ofBits .f32 0x00000000#32) i) (Ideal.ofBits .f32 0x45800000#32) = _
  rw [Cert.KLSum.host_total]
  rfl

end Cert.ReferenceIdeal.RefValue

end
-- ==== Proof.lean ====
/-
  The certificate: a kernel that computes the mean, over 4096 Gaussian pairs, of the Kullback–Leibler divergence
  between diagonal Gaussians with 2048 coordinates each — KL = Σ ½ · (r² + d² − 1 − 2·log r), r = σp / σq,
  d = (μq − μp) / σq — is equivalent, over the extended reals, to the plain array program that computes the same
  quantity as "sum over the last two axes, then mean over the first two".

  The kernel flattens the four arrays to 4096 × 2048, walks sixteen blocks of 256 rows, and keeps one running sum
  across the blocks; the reference sums 2048 coordinates per pair, then the 4096 pair sums. Element by element the
  two compute the same summand with the same constants; the two totals differ only in the order and grouping of a
  finite sum of extended reals, which addition's commutativity and associativity make irrelevant (no finiteness of
  the inputs is used); both then divide by 4096.

  The three frames: the two kernels' are the generated frame certificates; the reference's is its generated run with
  the result dropped. The idealization rewrote nothing, so `preserves` is trivial. `algebraic` joins the kernel's run
  (KernelValue.lean) and the reference's (RefValue.lean) at the one number both end holding (Spec.lean's `klMean`).
-/
import proofs.«156504_j74560632259496_1_alg».proof.Defs
import proofs.«156504_j74560632259496_1_alg».proof.Proof.Gen.Kernel
import proofs.«156504_j74560632259496_1_alg».proof.Proof.Gen.Kernel.Skeleton
import proofs.«156504_j74560632259496_1_alg».proof.Proof.Gen.Kernel.Launch
import proofs.«156504_j74560632259496_1_alg».proof.Proof.Gen.Kernel.Points
import proofs.«156504_j74560632259496_1_alg».proof.Proof.Gen.Kernel.Frame
import proofs.«156504_j74560632259496_1_alg».proof.Proof.Gen.KernelIdeal
import proofs.«156504_j74560632259496_1_alg».proof.Proof.Gen.KernelIdeal.Skeleton
import proofs.«156504_j74560632259496_1_alg».proof.Proof.Gen.KernelIdeal.Launch
import proofs.«156504_j74560632259496_1_alg».proof.Proof.Gen.KernelIdeal.Points
import proofs.«156504_j74560632259496_1_alg».proof.Proof.Gen.KernelIdeal.Frame
import proofs.«156504_j74560632259496_1_alg».proof.Proof.Gen.ReferenceIdeal
import proofs.«156504_j74560632259496_1_alg».proof.Proof.Gen.ReferenceIdeal.Run
import proofs.«156504_j74560632259496_1_alg».proof.Proof.Gen.ReferenceIdeal.Read
import proofs.«156504_j74560632259496_1_alg».proof.Proof.Gen.Pre_finite_inputs
import proofs.«156504_j74560632259496_1_alg».proof.Proof.KernelValue
import proofs.«156504_j74560632259496_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the four arguments, end with the mean of the per-element divergence
    over all elements: the kernel by its running sum over sixteen blocks, the reference by its two nested sums. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
